-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x512 .f32) (main_arg1 : IVec S2x800000 32) (main_arg2 : FVec F S512x128 .f32) (main_arg3 : FVec F S128 .f32) (main_arg4 : FVec F S128x64 .f32) (main_arg5 : FVec F S64 .f32) (main_arg6 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 86
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S2000x64, .f32⟩
  | .local _ .vmem, ⟨15, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 141
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x64, .f32⟩
  | 5 => ⟨S64, .f32⟩
  | 6 => ⟨S128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S_, .f32⟩
  | 72 => ⟨S_, .f32⟩
  | 73 => ⟨S128, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000, .i32⟩
  | 82 => ⟨S1x800000, .i32⟩
  | 83 => ⟨S800000, .i32⟩
  | 84 => ⟨S850000, .i32⟩
  | 85 => ⟨S1x800000, .i32⟩
  | 86 => ⟨S800000, .i32⟩
  | 87 => ⟨S850000, .i32⟩
  | 88 => ⟨S_, .f32⟩
  | 89 => ⟨S850000, .f32⟩
  | 90 => ⟨S_, .f32⟩
  | 91 => ⟨S50000, .f32⟩
  | 92 => ⟨S850000x1, .i32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x512, .f32⟩

abbrev hbmTy0_1 (i : Nat) : BufTy := match i % 128 with
  | 0 => ⟨S850000, .i32⟩
  | 1 => ⟨S850000x1, .i32⟩
  | 2 => ⟨S850000x64, .f32⟩
  | 3 => ⟨S850000x1, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S1x64, .f32⟩
  | 11 => ⟨S50000x64, .f32⟩
  | 12 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_cst_10 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_c_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelHost.lean ====
/-
  The part of the graph convolution both programs compute with the same array operations, as named functions of
  the edge list: the message sources and targets (each row of the edge list followed by one self loop per node), the
  in-degree with self loops, its inverse square root where positive, the per-edge weight
  dinv[src] · dinv[dst], and the aggregation of a node feature array along the edges — gather the rows at the sources,
  scale each by its edge's weight, add them up at the targets. Negative node numbers count from the end, as array
  indexing does. The functions are stated for any float values; nothing here is evaluated.
-/
import proofs.«111682_j4303557231207_1_alg».proof.Proof.Gen.KernelIdeal

noncomputable section

namespace Cert.Gcn.K

open Cert.KernelIdeal Cert.KernelIdeal.Facts₀ Cert.KernelIdeal.Facts Idealize.ShloMosaic

variable {F : FTy → Type} [FloatOps F]

/-- Message sources: row 0 of the edge list, then the nodes themselves. -/
def src (ei : Vec F S2x800000 .i32) : Vec F S850000 .i32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Aggregation targets: row 1 of the edge list, then the nodes themselves. -/
def dst (ei : Vec F S2x800000 .i32) : Vec F S850000 .i32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number counts from the end: v < 0 becomes v + 50000. -/
def wrap (v : Vec F S850000 .i32) : Vec F S850000 .i32 :=
  select (cmpi .slt v (broadcastInDim S850000 ![] bcast_S_S850000 (constantI S_ 32 0#32))) (addi v (broadcastInDim S850000 ![] bcast_S_S850000 (constantI S_ 32 50000#32))) v

/-- A vector of node numbers as a one-column array of start indices. -/
def col (v : Vec F S850000 .i32) : Vec F S850000x1 .i32 :=
  broadcastInDim S850000x1 ![0] bcast_S850000_S850000x1_0 v

/-- In-degree with self loops: ones added up at the targets. -/
def deg (ei : Vec F S2x800000 .i32) : Vec F S50000 .f32 :=
  Host.scatterAdd scatter_S50000_S850000x1_S850000_n_0_0_1 (broadcastInDim S50000 ![] bcast_S_S50000 (constant S_ .f32 0x00000000#32)) (col (dst ei)) (broadcastInDim S850000 ![] bcast_S_S850000 (constant S_ .f32 0x3F800000#32))

/-- deg^(-1/2) where the degree is positive, zero elsewhere. -/
def dinv (ei : Vec F S2x800000 .i32) : Vec F S50000 .f32 :=
  select (cmpf (F := F) .ogt (deg ei) (broadcastInDim S50000 ![] bcast_S_S50000 (constant S_ .f32 0x00000000#32))) (Host.rsqrt (deg ei)) (broadcastInDim S50000 ![] bcast_S_S50000 (id (constant S_ .f32 0x00000000#32)))

/-- The weight of each edge: dinv at its source times dinv at its target. -/
def nrm (ei : Vec F S2x800000 .i32) : Vec F S850000 .f32 :=
  mulf (Host.gather gather_S50000_S850000x1_S850000_n_0_n_n_0_1_1 (dinv ei) (col (wrap (src ei)))) (Host.gather gather_S50000_S850000x1_S850000_n_0_n_n_0_1_1 (dinv ei) (col (wrap (dst ei))))

/-- The edge weights as a one-column array. -/
def nrmCol (ei : Vec F S2x800000 .i32) : Vec F S850000x1 .f32 :=
  broadcastInDim S850000x1 ![0] bcast_S850000_S850000x1_0 (nrm ei)

/-- Aggregation of a 128-column feature array along the edges, from given sources, targets and edge weights. -/
def agg128 (s d : Vec F S850000 .i32) (n : Vec F S850000x1 .f32) (h : Vec F S50000x128 .f32) : Vec F S50000x128 .f32 :=
  Host.scatterAdd scatter_S50000x128_S850000x1_S850000x128_1_0_0_1 (broadcastInDim S50000x128 ![] bcast_S_S50000x128 (constant S_ .f32 0x00000000#32)) (col d) (mulf (Host.gather gather_S50000x128_S850000x1_S850000x128_1_0_n_n_0_1_1128 h (col (wrap s))) (broadcastInDim S850000x128 ![0, 1] bcast_S850000x1_S850000x128_0_1 n))

/-- Aggregation of a 64-column feature array along the edges, then the output bias added to every row. -/
def out64 (s d : Vec F S850000 .i32) (n : Vec F S850000x1 .f32) (h : Vec F S50000x64 .f32) (b : Vec F S64 .f32) : Vec F S50000x64 .f32 :=
  addf (Host.scatterAdd scatter_S50000x64_S850000x1_S850000x64_1_0_0_1 (broadcastInDim S50000x64 ![] bcast_S_S50000x64 (constant S_ .f32 0x00000000#32)) (col d) (mulf (Host.gather gather_S50000x64_S850000x1_S850000x64_1_0_n_n_0_1_164 h (col (wrap s))) (broadcastInDim S850000x64 ![0, 1] bcast_S850000x1_S850000x64_0_1 n))) (broadcastInDim S50000x64 ![0, 1] bcast_S1x64_S50000x64_0_1 (broadcastInDim S1x64 ![1] bcast_S64_S1x64_1 b))

end Cert.Gcn.K

end
-- ==== Proof.KernelStretch.lean ====
/-
  Each stretch of array operations of the idealized kernel program between two kernel regions, read at the
  buffers the rest of the program uses, over ANY contents the stretch may be entered at: the buffer a stretch
  writes holds the named function (sources, targets, edge weights, aggregation) of the entry contents of the
  buffers it reads, and a buffer the stretch does not write holds what it held.
-/
import proofs.«111682_j4303557231207_1_alg».proof.Proof.Gen.KernelIdeal.Launch
import proofs.«111682_j4303557231207_1_alg».proof.Proof.KernelHost
import Idealize.ShloMosaic.Lib.StableHlo.Run

set_option maxRecDepth 16384

noncomputable section

namespace Cert.Gcn.Stretch

open Cert.KernelIdeal Cert.KernelIdeal.Gen
open Idealize.ShloMosaic Idealize.ShloMosaic.TcCoe Idealize.SL.Sem Idealize.ShloMosaic.StableHlo

variable {F : FTy → Type} [FloatOps F]
variable (Wv : Valuation τ sig (Elt F))

/-! ## The last stretch: the second aggregation and the output bias -/

set_option maxHeartbeats 1000000 in
/-- The program's result: the 64-column array of region 2 aggregated along the edges, plus the output bias. -/
theorem tail_v62 : after hostOps3 Wv (Proc.devRef .tc main_v62)
    = K.out64 (Wv (Proc.devRef .tc main_v3)) (Wv (Proc.devRef .tc main_v6)) (Wv (Proc.devRef .tc main_v30)) (Wv (Proc.devRef .tc main_v47)) (Wv (Proc.devRef .tc main_arg5)) := by
  after_results_simp
  rfl

/-! ## The stretch between regions 0 and 1: the first aggregation, the bias and the retain probabilities as rows -/

set_option maxHeartbeats 1000000 in
/-- The array region 1 reads: the 128-column array of region 0 aggregated along the edges. -/
theorem mid_v43 : after hostOps1 Wv (Proc.devRef .tc main_v43)
    = K.agg128 (Wv (Proc.devRef .tc main_v3)) (Wv (Proc.devRef .tc main_v6)) (Wv (Proc.devRef .tc main_v30)) (Wv (Proc.devRef .tc main_v31)) := by
  after_results_simp
  rfl
set_option maxHeartbeats 1000000 in
/-- The hidden bias as a one-row array. -/
theorem mid_v44 : after hostOps1 Wv (Proc.devRef .tc main_v44)
    = shapeCast S1x128 (Wv (Proc.devRef .tc main_arg3)) shapeCasts_S128_S1x128 := by
  after_results_simp
  rfl
set_option maxHeartbeats 1000000 in
/-- The retain probabilities as a one-row array. -/
theorem mid_v45 : after hostOps1 Wv (Proc.devRef .tc main_v45)
    = shapeCast S1x128 (Wv (Proc.devRef .tc main_arg6)) shapeCasts_S128_S1x128 := by
  after_results_simp
  rfl
set_option maxHeartbeats 1000000 in
theorem mid_kept_v3 : after hostOps1 Wv (Proc.devRef .tc main_v3) = Wv (Proc.devRef .tc main_v3) := by
  after_results_simp
set_option maxHeartbeats 1000000 in
theorem mid_kept_v6 : after hostOps1 Wv (Proc.devRef .tc main_v6) = Wv (Proc.devRef .tc main_v6) := by
  after_results_simp
set_option maxHeartbeats 1000000 in
theorem mid_kept_v30 : after hostOps1 Wv (Proc.devRef .tc main_v30) = Wv (Proc.devRef .tc main_v30) := by
  after_results_simp
set_option maxHeartbeats 1000000 in
theorem mid_kept_arg4 : after hostOps1 Wv (Proc.devRef .tc main_arg4) = Wv (Proc.devRef .tc main_arg4) := by
  after_results_simp
set_option maxHeartbeats 1000000 in
theorem mid_kept_arg5 : after hostOps1 Wv (Proc.devRef .tc main_arg5) = Wv (Proc.devRef .tc main_arg5) := by
  after_results_simp

/-! ## The stretches before region 0: sources, targets, the degree's inverse square root, the edge weights -/

set_option maxHeartbeats 1000000 in
theorem pre0_v3 : after hostOps0 Wv (Proc.devRef .tc main_v3) = K.src (Wv (Proc.devRef .tc main_arg1)) := by
  after_results_simp
  rfl
set_option maxHeartbeats 1000000 in
theorem pre0_v6 : after hostOps0 Wv (Proc.devRef .tc main_v6) = K.dst (Wv (Proc.devRef .tc main_arg1)) := by
  after_results_simp
  rfl
set_option maxHeartbeats 1000000 in
/-- Where the degree is positive. -/
theorem pre0_v12 : after hostOps0 Wv (Proc.devRef .tc main_v12)
    = cmpf (F := F) .ogt (K.deg (Wv (Proc.devRef .tc main_arg1))) (broadcastInDim S50000 ![] bcast_S_S50000 (constant S_ .f32 0x00000000#32)) := by
  after_results_simp
  rfl
set_option maxHeartbeats 1000000 in
theorem pre0_v13 : after hostOps0 Wv (Proc.devRef .tc main_v13) = Host.rsqrt (K.deg (Wv (Proc.devRef .tc main_arg1))) := by
  after_results_simp
  rfl
set_option maxHeartbeats 1000000 in
theorem pre0_cst_2 : after hostOps0 Wv (Proc.devRef .tc main_cst_2) = constant S_ .f32 0x00000000#32 := by
  after_results_simp
set_option maxHeartbeats 1000000 in
theorem pre0_kept_arg0 : after hostOps0 Wv (Proc.devRef .tc main_arg0) = Wv (Proc.devRef .tc main_arg0) := by
  after_results_simp
set_option maxHeartbeats 1000000 in
theorem pre0_kept_arg2 : after hostOps0 Wv (Proc.devRef .tc main_arg2) = Wv (Proc.devRef .tc main_arg2) := by
  after_results_simp
set_option maxHeartbeats 1000000 in
theorem pre0_kept_arg3 : after hostOps0 Wv (Proc.devRef .tc main_arg3) = Wv (Proc.devRef .tc main_arg3) := by
  after_results_simp
set_option maxHeartbeats 1000000 in
theorem pre0_kept_arg4 : after hostOps0 Wv (Proc.devRef .tc main_arg4) = Wv (Proc.devRef .tc main_arg4) := by
  after_results_simp
set_option maxHeartbeats 1000000 in
theorem pre0_kept_arg5 : after hostOps0 Wv (Proc.devRef .tc main_arg5) = Wv (Proc.devRef .tc main_arg5) := by
  after_results_simp
set_option maxHeartbeats 1000000 in
theorem pre0_kept_arg6 : after hostOps0 Wv (Proc.devRef .tc main_arg6) = Wv (Proc.devRef .tc main_arg6) := by
  after_results_simp

set_option maxHeartbeats 1000000 in
/-- The select between the inverse square root and zero. -/
theorem pre1_v14 : after hostOps0_1 Wv (Proc.devRef .tc main_v14)
    = select (Wv (Proc.devRef .tc main_v12)) (Wv (Proc.devRef .tc main_v13)) (broadcastInDim S50000 ![] bcast_S_S50000 (id (Wv (Proc.devRef .tc main_cst_2)))) := by
  after_results_simp
  rfl
set_option maxHeartbeats 1000000 in
theorem pre1_kept_v3 : after hostOps0_1 Wv (Proc.devRef .tc main_v3) = Wv (Proc.devRef .tc main_v3) := by
  after_results_simp
set_option maxHeartbeats 1000000 in
theorem pre1_kept_v6 : after hostOps0_1 Wv (Proc.devRef .tc main_v6) = Wv (Proc.devRef .tc main_v6) := by
  after_results_simp
set_option maxHeartbeats 1000000 in
theorem pre1_kept_arg0 : after hostOps0_1 Wv (Proc.devRef .tc main_arg0) = Wv (Proc.devRef .tc main_arg0) := by
  after_results_simp
set_option maxHeartbeats 1000000 in
theorem pre1_kept_arg2 : after hostOps0_1 Wv (Proc.devRef .tc main_arg2) = Wv (Proc.devRef .tc main_arg2) := by
  after_results_simp
set_option maxHeartbeats 1000000 in
theorem pre1_kept_arg3 : after hostOps0_1 Wv (Proc.devRef .tc main_arg3) = Wv (Proc.devRef .tc main_arg3) := by
  after_results_simp
set_option maxHeartbeats 1000000 in
theorem pre1_kept_arg4 : after hostOps0_1 Wv (Proc.devRef .tc main_arg4) = Wv (Proc.devRef .tc main_arg4) := by
  after_results_simp
set_option maxHeartbeats 1000000 in
theorem pre1_kept_arg5 : after hostOps0_1 Wv (Proc.devRef .tc main_arg5) = Wv (Proc.devRef .tc main_arg5) := by
  after_results_simp
set_option maxHeartbeats 1000000 in
theorem pre1_kept_arg6 : after hostOps0_1 Wv (Proc.devRef .tc main_arg6) = Wv (Proc.devRef .tc main_arg6) := by
  after_results_simp

set_option maxHeartbeats 1000000 in
/-- The edge weights as a one-column array, from the inverse square roots and the sources and targets. -/
theorem pre2_v30 : after hostOps0_2 Wv (Proc.devRef .tc main_v30)
    = broadcastInDim S850000x1 ![0] bcast_S850000_S850000x1_0 (mulf (Host.gather gather_S50000_S850000x1_S850000_n_0_n_n_0_1_1 (Wv (Proc.devRef .tc main_v14)) (K.col (K.wrap (Wv (Proc.devRef .tc main_v3))))) (Host.gather gather_S50000_S850000x1_S850000_n_0_n_n_0_1_1 (Wv (Proc.devRef .tc main_v14)) (K.col (K.wrap (Wv (Proc.devRef .tc main_v6)))))) := by
  after_results_simp
  rfl
set_option maxHeartbeats 1000000 in
theorem pre2_kept_v3 : after hostOps0_2 Wv (Proc.devRef .tc main_v3) = Wv (Proc.devRef .tc main_v3) := by
  after_results_simp
set_option maxHeartbeats 1000000 in
theorem pre2_kept_v6 : after hostOps0_2 Wv (Proc.devRef .tc main_v6) = Wv (Proc.devRef .tc main_v6) := by
  after_results_simp
set_option maxHeartbeats 1000000 in
theorem pre2_kept_arg0 : after hostOps0_2 Wv (Proc.devRef .tc main_arg0) = Wv (Proc.devRef .tc main_arg0) := by
  after_results_simp
set_option maxHeartbeats 1000000 in
theorem pre2_kept_arg2 : after hostOps0_2 Wv (Proc.devRef .tc main_arg2) = Wv (Proc.devRef .tc main_arg2) := by
  after_results_simp
set_option maxHeartbeats 1000000 in
theorem pre2_kept_arg3 : after hostOps0_2 Wv (Proc.devRef .tc main_arg3) = Wv (Proc.devRef .tc main_arg3) := by
  after_results_simp
set_option maxHeartbeats 1000000 in
theorem pre2_kept_arg4 : after hostOps0_2 Wv (Proc.devRef .tc main_arg4) = Wv (Proc.devRef .tc main_arg4) := by
  after_results_simp
set_option maxHeartbeats 1000000 in
theorem pre2_kept_arg5 : after hostOps0_2 Wv (Proc.devRef .tc main_arg5) = Wv (Proc.devRef .tc main_arg5) := by
  after_results_simp
set_option maxHeartbeats 1000000 in
theorem pre2_kept_arg6 : after hostOps0_2 Wv (Proc.devRef .tc main_arg6) = Wv (Proc.devRef .tc main_arg6) := by
  after_results_simp

end Cert.Gcn.Stretch

end
-- ==== Proof.Spec.lean ====
/-
  The three dense stages of the two-layer graph convolution, each as ONE function of whole arrays, entry by entry:
  the two matrix products (an entry is the sum over the shared axis of the products of a row's and a column's
  entries) and the stage between them, relu(agg + b) scaled by the retain probabilities clamped to [0, 1].
  Floats are extended reals here; the literal words 0.0 and 1.0 are kept as words and never evaluated.
-/
import proofs.«111682_j4303557231207_1_alg».proof.KernelIdeal
import Idealize.ShloMosaic.Lib.ValueIdx
import Idealize.ShloMosaic.PureOps.Ideal

noncomputable section

open scoped BigOperators

namespace Cert.Gcn

open Idealize.ShloMosaic Cert.KernelIdeal

/-- Entry (r, k) of an array with 50000 rows and 512 columns. -/
abbrev e512 (r : Fin 50000) (k : Fin 512) : S50000x512.Idx := ValueIdx.ix2 r k
/-- Entry (r, k) of an array with 50000 rows and 128 columns. -/
abbrev e128 (r : Fin 50000) (k : Fin 128) : S50000x128.Idx := ValueIdx.ix2 r k
/-- Entry (r, k) of an array with 50000 rows and 64 columns. -/
abbrev e64 (r : Fin 50000) (k : Fin 64) : S50000x64.Idx := ValueIdx.ix2 r k
/-- Entry (k, j) of the first weight matrix. -/
abbrev w1e (k : Fin 512) (j : Fin 128) : S512x128.Idx := ValueIdx.ix2 k j
/-- Entry (k, j) of the second weight matrix. -/
abbrev w2e (k : Fin 128) (j : Fin 64) : S128x64.Idx := ValueIdx.ix2 k j
/-- Entry j of a row vector stored with a leading axis of length one. -/
abbrev rowe (j : Fin 128) : S1x128.Idx := ValueIdx.ix2 (0 : Fin 1) j

/-- The first layer's product x · W1: entry (r, j) is the sum over k of x[r, k] · W1[k, j]. -/
def mm1 (x : FVec Ideal S50000x512 .f32) (w : FVec Ideal S512x128 .f32) : FVec Ideal S50000x128 .f32 :=
  fun i => ∑ k : Fin 512, x (e512 ⟨(i 0).val, (i 0).isLt⟩ k) * w (w1e k ⟨(i 1).val, (i 1).isLt⟩)

/-- The second layer's product a · W2: entry (r, j) is the sum over k of a[r, k] · W2[k, j]. -/
def mm2 (a : FVec Ideal S50000x128 .f32) (w : FVec Ideal S128x64 .f32) : FVec Ideal S50000x64 .f32 :=
  fun i => ∑ k : Fin 128, a (e128 ⟨(i 0).val, (i 0).isLt⟩ k) * w (w2e k ⟨(i 1).val, (i 1).isLt⟩)

/-- The stage between the layers: entry (r, j) is max(agg[r, j] + b[j], 0) · min(1, max(0, p[j])), the bias and the
    retain probabilities given as rows of a one-row array. -/
def act (agg : FVec Ideal S50000x128 .f32) (b p : FVec Ideal S1x128 .f32) : FVec Ideal S50000x128 .f32 :=
  fun i => FloatOps.mulf
    (FloatOps.maximumf (FloatOps.addf (agg i) (b (rowe ⟨(i 1).val, (i 1).isLt⟩))) (FloatOps.ofBits .f32 0x00000000#32))
    (FloatOps.minimumf (FloatOps.ofBits .f32 0x3F800000#32)
      (FloatOps.maximumf (FloatOps.ofBits .f32 0x00000000#32) (p (rowe ⟨(i 1).val, (i 1).isLt⟩))))

end Cert.Gcn

end
-- ==== Proof.Region0.lean ====
/-
  The first matrix product, block by block: the grid's point t multiplies rows 2000·t … 2000·t + 1999 of x by the
  whole of W1 (the narrowing to bf16 is the identity on extended reals, the accumulator starts at zero), and the 25
  blocks tile the 50000 rows; so the array the region leaves is x · W1, entry by entry.
-/
import proofs.«111682_j4303557231207_1_alg».proof.Proof.Gen.KernelIdeal.Frame
import proofs.«111682_j4303557231207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block product at an entry -/

/-- The left operand's row coordinate is the result's row. -/
theorem lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The left operand's column coordinate is the summation index. -/
theorem lhs_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- The right operand's row coordinate is the summation index. -/
theorem rhs_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- The right operand's column coordinate is the result's column. -/
theorem rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (p, q) of the body's result on a block of 2000 rows of x and the whole of W1: the narrowings are the identity,
    the accumulator is the zero word, so it is the sum over k of the products x[p, k] · W1[k, q]. -/
theorem pay_apply (x : Vec Ideal S2000x512 .f32) (w : Vec Ideal S512x128 .f32) (p : Fin 2000) (q : Fin 128) :
    k0_pay1 (F := Ideal) x w (ix2 p q) = ∑ k : Fin 512, x (ix2 p k) * w (ix2 k q) := by
  unfold k0_pay1
  show FloatOps.matmul dot_S2000x512_S512x128_S2000x128_1_0_0_1_n_n none (truncf .bf16 x bitsLt_bf16_f32) (truncf .bf16 w bitsLt_bf16_f32) (constant (F := Ideal) S2000x128 .f32 0x00000000#32) (ix2 p q) = _
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = (ix2 p k : S2000x512.Idx) := funext fun a => Fin.ext (by
    match a with
    | ⟨0, _⟩ => exact lhs_row _ _
    | ⟨1, _⟩ => exact (lhs_col _ _).trans hk)
  have er : dot_S2000x512_S512x128_S2000x128_1_0_0_1_n_n.rhsIdx (ix2 p q) ((contrEquiv1 dot_S2000x512_S512x128_S2000x128_1_0_0_1_n_n 512 rfl rfl).symm k) = (ix2 k q : S512x128.Idx) := funext fun a => Fin.ext (by
    match a with
    | ⟨0, _⟩ => exact (rhs_row _ _).trans hk
    | ⟨1, _⟩ => exact rhs_col _ _)
  rw [truncf_apply, truncf_apply, el, er]

-- the TensorCore's buffer contents when the region is entered
variable (V : (c : Dev nD) → (b : Ref sig .tc) → Buf (Elt Ideal) ((c : Thread nD τ).loc b))

/-! ## What a point writes back -/

/-- The body reads and writes its blocks whole: at offsets zero. -/
theorem zero_offsets : (![0, 0] : Fin 2 → Nat) = fun _ => 0 := funext fun a => by fin_cases a <;> rfl

/-- The windows' index maps over the grid: the block of x moves with the result's row block, W1's block is the whole
    array at every point, and the result's row block at point t is block t. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of x · W1 of the arrays the region finds: the block of x holds rows
    2000·t … 2000·t + 1999 in all their columns, the block of W1 is the whole of W1, and entry (p, q) of the block of
    the result is entry (2000·t + p, q) of the array. -/
theorem flushed_eq (c : Dev nD) (t : Fin cfg0.N) :
    (dat0 (F := Ideal) V c).flushed 2 t
      = ((cfg0.win 2).blk t).view.read (Elt Ideal) (Cert.Gcn.mm1 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x512) zero_offsets, View.ld_unit_zero (S := S512x128) zero_offsets]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = Cert.Gcn.mm1 (V c main_arg0) (V c main_arg2) (((cfg0.win 2).blk t).view.emb (ix2 p q))
  refine (pay_apply _ _ p q).trans ?_
  unfold Cert.Gcn.mm1
  refine Finset.sum_congr rfl fun k _ => ?_
  obtain ⟨e0, e1, e2, e3, e4, e5⟩ := idx_facts t
  refine congrArg₂ (· * ·) ?_ ?_
  · show V c main_arg0 (((cfg0.win 0).blk t).view.emb (ix2 p k)) = V c main_arg0 _
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  · show V c main_arg2 (((cfg0.win 1).blk t).view.emb (ix2 k q)) = V c main_arg2 _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega

/-! ## The blocks tile the array -/

/-- An entry of the result array lies in point t's block when each coordinate lies in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v31).slice (win0_2.rect t)).set ↔ _
  rw [View.set_slice_whole, Rect.mem_set_unit]
  exact Iff.rfl

/-- The point whose block holds row r is r / 2000. -/
def pointOf (i : S50000x128.Idx) : Fin cfg0.N :=
  ⟨(i 0).val / 2000, by have hi0 : (i 0).val < 50000 := (i 0).isLt; show (i 0).val / 2000 < 25; omega⟩

/-- Every entry of the result array lies in the block of some point that writes back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨pointOf i, flush0_2 _, ?_⟩
  rw [mem_blk]
  obtain ⟨e0, e1, e2, e3, e4, e5⟩ := idx_facts (pointOf i)
  have hp : (pointOf i).val = (i 0).val / 2000 := rfl
  intro a
  match a with
  | ⟨0, _⟩ =>
    show win0_2.index (pointOf i) (0 : Fin 2) * 2000 ≤ (i 0).val ∧ (i 0).val < win0_2.index (pointOf i) (0 : Fin 2) * 2000 + 2000
    omega
  | ⟨1, _⟩ =>
    show win0_2.index (pointOf i) (1 : Fin 2) * 128 ≤ (i 1).val ∧ (i 1).val < win0_2.index (pointOf i) (1 : Fin 2) * 128 + 128
    omega

/-! ## The array the region leaves -/

/-- What region 0 leaves in its output array, whatever the contents it is entered at: the product of the arrays it finds
    at its two input windows. -/
theorem arr (c : Dev nD) :
    (dat0 (F := Ideal) V c).arrAt 2 cfg0.N = Cert.Gcn.mm1 (V c main_arg0) (V c main_arg2) :=
  (dat0 (F := Ideal) V c).arrAt_eq_of_cover 2 _ (fun t _ => flushed_eq V c t) cover

end Cert.Gcn.Region0

end
-- ==== Proof.Region1.lean ====
/-
  The stage between the layers, block by block: point t takes rows 2000·t … 2000·t + 1999 of the aggregated array,
  adds the bias row, takes the maximum with zero and scales by the retain probabilities clamped to [0, 1]; every
  operation is entrywise, and the 25 blocks tile the rows.
-/
import proofs.«111682_j4303557231207_1_alg».proof.Proof.Gen.KernelIdeal.Frame
import proofs.«111682_j4303557231207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the TensorCore's buffer contents when the region is entered
variable (V : (c : Dev nD) → (b : Ref sig .tc) → Buf (Elt Ideal) ((c : Thread nD τ).loc b))

/-- The body's arithmetic at entry (r, q) of a block: the aggregated entry plus the bias of its column, the maximum
    with zero, times the column's retain probability clamped to [0, 1]; the casts are identities and the two row
    broadcasts read the one row at the column. -/
theorem pay_apply (b p : Vec Ideal S1x128 .f32) (x : Vec Ideal S2000x128 .f32) (r : Fin 2000) (q : Fin 128) :
    k1_pay1 (F := Ideal) b p x (ix2 r q) =
      FloatOps.mulf (FloatOps.maximumf (FloatOps.addf (x (ix2 r q)) (b (ix2 (0 : Fin 1) q))) (FloatOps.ofBits .f32 0x00000000#32))
        (FloatOps.minimumf (FloatOps.ofBits .f32 0x3F800000#32)
          (FloatOps.maximumf (FloatOps.ofBits .f32 0x00000000#32) (p (ix2 (0 : Fin 1) q)))) := by
  unfold k1_pay1
  rw [shapeCast_self, shapeCast_self, shapeCast_self]
  show FloatOps.mulf
      (FloatOps.maximumf
        (FloatOps.addf (x (ix2 r q)) (broadcastTo S2000x128 b broadcasts_S1x128_S2000x128 (ix2 r q)))
        (FloatOps.ofBits .f32 0x00000000#32))
      (broadcastTo S2000x128
        (minimumf (broadcast S1x128 (FloatOps.ofBits (F := Ideal) .f32 0x3F800000#32))
          (maximumf (broadcast S1x128 (FloatOps.ofBits (F := Ideal) .f32 0x00000000#32)) p))
        broadcasts_S1x128_S2000x128 (ix2 r q)) = _
  rw [broadcastTo_1b_ab_apply, broadcastTo_1b_ab_apply]
  rfl

/-- The zero offset of a whole-buffer access. -/
theorem hz : (![0, 0] : Fin 2 → Nat) = fun _ => 0 := funext fun a => by fin_cases a <;> rfl

/-- The block indices at point t: the aggregated array's and the output's row block is t, at column block 0; the bias
    row and the retain-probability row are whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the stage's function of the arrays the region is entered at. -/
theorem flushed_eq (c : Dev nD) (t : Fin cfg1.N) :
    (dat1 (F := Ideal) V c).flushed 3 t
      = ((cfg1.win 3).blk t).view.read (Elt Ideal) (Cert.Gcn.act (V c main_v43) (V c main_v44) (V c main_v45)) := by
  show (cfg1.win 3).cut (grid1.coords t) ((dat1 V c).after 3 t) = _
  rw [after1_3]
  unfold out1_3
  rw [View.canon_unit_zero hz]
  simp only [View.ld_unit_zero (S := S1x128) hz, View.ld_unit_zero (S := S2000x128) hz]
  obtain ⟨e0, e1, e2, e3, e4, e5, e6, e7⟩ := idx_facts t
  funext j
  revert j
  show ∀ j : S2000x128.Idx, k1_pay1 (F := Ideal) (iblk1 V c 1 t) (iblk1 V c 2 t) (iblk1 V c 0 t) j
      = Cert.Gcn.act (V c main_v43) (V c main_v44) (V c main_v45) (((cfg1.win 3).blk t).view.emb j)
  intro j
  obtain ⟨p, q, rfl⟩ : ∃ (p : Fin 2000) (q : Fin 128), j = ix2 p q := ⟨j 0, j 1, eq_ix2 j⟩
  refine (pay_apply _ _ _ p q).trans ?_
  have h0 : iblk1 V c 0 t (ix2 p q) = V c main_v43 (((cfg1.win 3).blk t).view.emb (ix2 p q)) := by
    show V c main_v43 (((cfg1.win 0).blk t).view.emb (ix2 p q)) = V c main_v43 (((cfg1.win 3).blk t).view.emb (ix2 p q))
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have h1 : iblk1 V c 1 t (ix2 (0 : Fin 1) q)
      = V c main_v44 (Cert.Gcn.rowe ⟨((((cfg1.win 3).blk t).view.emb (ix2 p q)) 1).val, ((((cfg1.win 3).blk t).view.emb (ix2 p q)) 1).isLt⟩) := by
    show V c main_v44 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have h2 : iblk1 V c 2 t (ix2 (0 : Fin 1) q)
      = V c main_v45 (Cert.Gcn.rowe ⟨((((cfg1.win 3).blk t).view.emb (ix2 p q)) 1).val, ((((cfg1.win 3).blk t).view.emb (ix2 p q)) 1).isLt⟩) := by
    show V c main_v45 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-- An index of the output array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v46).slice (win1_3.rect t)).set ↔ _
  rw [View.set_slice_whole, Rect.mem_set_unit]
  exact Iff.rfl

/-- The 25 row blocks tile the rows: row r is in the block of point r / 2000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 2000 < 25 := by omega
  obtain ⟨t, ht⟩ : ∃ t : Fin cfg1.N, t.val = (i 0).val / 2000 := ⟨⟨(i 0).val / 2000, hlt⟩, rfl⟩
  obtain ⟨e0, e1, e2, e3, e4, e5, e6, e7⟩ := idx_facts t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- What region 1 leaves in its output array, whatever the contents it is entered at. -/
theorem arr (c : Dev nD) :
    (dat1 (F := Ideal) V c).arrAt 3 cfg1.N = Cert.Gcn.act (V c main_v43) (V c main_v44) (V c main_v45) :=
  (dat1 (F := Ideal) V c).arrAt_eq_of_cover 3 _ (fun t _ => flushed_eq V c t) cover

end Cert.Gcn.Region1

end
-- ==== Proof.Region2.lean ====
/-
  The second matrix product, block by block: point t multiplies rows 2000·t … 2000·t + 1999 of the activations by the
  whole of W2; the 25 blocks tile the 50000 rows, so the array the region leaves is a · W2, entry by entry.
-/
import proofs.«111682_j4303557231207_1_alg».proof.Proof.Gen.KernelIdeal.Frame
import proofs.«111682_j4303557231207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the TensorCore's buffer contents when the region is entered
variable (V : (c : Dev nD) → (b : Ref sig .tc) → Buf (Elt Ideal) ((c : Thread nD τ).loc b))

/-! ## One block of the product, entry by entry -/

/-- The left operand's index of the block product: its row is the output's row. -/
theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column is the summation position. -/
theorem lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row is the summation position. -/
theorem rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand's column is the output's column. -/
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of what the body computes from a block x of 2000 rows and the weights w: the change of float
    format is the identity on extended reals and the accumulator starts at zero, so it is the plain sum over the
    128 shared positions of x[p, k] · w[k, q]. -/
theorem pay_apply (x : FVec Ideal S2000x128 .f32) (w : FVec Ideal S128x64 .f32) (p : Fin 2000) (q : Fin 64) :
    k2_pay1 (F := Ideal) x w (ix2 p q) = ∑ k : Fin 128, x (ix2 p k) * w (ix2 k q) := by
  unfold k2_pay1
  rw [shapeCast_self]
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er]

/-- If the block x holds, in its row (j 0), the row (i 0) of the array a, and w holds the weights b, then entry j of
    the block's product is entry i of a · b. -/
theorem pay_eq_mm2 (x : FVec Ideal S2000x128 .f32) (w : FVec Ideal S128x64 .f32)
    (a : FVec Ideal S50000x128 .f32) (b : FVec Ideal S128x64 .f32) (j : S2000x64.Idx) (i : S50000x64.Idx)
    (hx : ∀ k : Fin 128, x (ix2 ⟨(j 0).val, (j 0).isLt⟩ k) = a (e128 ⟨(i 0).val, (i 0).isLt⟩ k))
    (hw : ∀ k : Fin 128, w (ix2 k ⟨(j 1).val, (j 1).isLt⟩) = b (w2e k ⟨(i 1).val, (i 1).isLt⟩)) :
    k2_pay1 (F := Ideal) x w j = Cert.Gcn.mm2 a b i := by
  obtain ⟨p, q, rfl⟩ : ∃ (p : Fin 2000) (q : Fin 64), j = ix2 p q := ⟨j 0, j 1, eq_ix2 j⟩
  rw [pay_apply]
  unfold Cert.Gcn.mm2
  exact Finset.sum_congr rfl fun k _ => congrArg₂ (· * ·) (hx k) (hw k)

/-! ## What a point writes back -/

/-- The offsets (0, 0) of a whole block, as the constant function zero. -/
theorem hz : (![0, 0] : Fin 2 → Nat) = fun _ => 0 := funext fun a => by fin_cases a <;> rfl

/-- The block indices over the 25 points: the activations' block moves with the output's row block t, the
    weights' block is always the whole matrix. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Point t writes back block t of the product a · W2 of the arrays the region is entered at. -/
theorem flushed_eq (c : Dev nD) (t : Fin cfg2.N) :
    (dat2 (F := Ideal) V c).flushed 2 t
      = ((cfg2.win 2).blk t).view.read (Elt Ideal) (Cert.Gcn.mm2 (V c main_v46) (V c main_arg4)) := by
  show (cfg2.win 2).cut (grid2.coords t) ((dat2 (F := Ideal) V c).after 2 t) = _
  rw [after2_2]
  unfold out2_2
  rw [View.canon_unit_zero hz]
  simp only [View.ld_unit_zero (S := S2000x128) hz, View.ld_unit_zero (S := S128x64) hz]
  obtain ⟨e0, e1, e2, e3, e4, e5⟩ := idx_facts t
  funext j
  show k2_pay1 (F := Ideal) (iblk2 V c 0 t) (iblk2 V c 1 t) j
    = Cert.Gcn.mm2 (V c main_v46) (V c main_arg4) (((cfg2.win 2).blk t).view.emb j)
  refine pay_eq_mm2 (iblk2 V c 0 t) (iblk2 V c 1 t) (V c main_v46) (V c main_arg4) j
    (((cfg2.win 2).blk t).view.emb j) (fun k => ?_) (fun k => ?_)
  · show V c main_v46 (((cfg2.win 0).blk t).view.emb (ix2 ⟨(j 0).val, (j 0).isLt⟩ k))
      = V c main_v46 (e128 ⟨((((cfg2.win 2).blk t).view.emb j) 0).val, ((((cfg2.win 2).blk t).view.emb j) 0).isLt⟩ k)
    refine congrArg _ (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 128 + 1 * k.val = k.val
      omega
  · show V c main_arg4 (((cfg2.win 1).blk t).view.emb (ix2 k ⟨(j 1).val, (j 1).isLt⟩))
      = V c main_arg4 (w2e k ⟨((((cfg2.win 2).blk t).view.emb j) 1).val, ((((cfg2.win 2).blk t).view.emb j) 1).isLt⟩)
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 64 + 1 * (j 1).val = win2_2.index t (1 : Fin 2) * 64 + 1 * (j 1).val
      omega

/-! ## The 25 blocks tile the array -/

/-- An entry of the array is in point t's block when each coordinate is in the block's range on its axis. -/
theorem mem_blk (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v47).slice (win2_2.rect t)).set ↔ _
  rw [View.set_slice_whole, Rect.mem_set_unit]
  exact Iff.rfl

/-- Row r lies in the block of point r / 2000, and every point writes its block back. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 2000 < cfg2.N := by show (i 0).val / 2000 < 25; omega
  obtain ⟨e0, e1, e2, e3, e4, e5⟩ := idx_facts ⟨(i 0).val / 2000, ht⟩
  have e4' : win2_2.index ⟨(i 0).val / 2000, ht⟩ (0 : Fin 2) = (i 0).val / 2000 := e4
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    omega

/-- What region 2 leaves in its output array, whatever the contents it is entered at. -/
theorem arr (c : Dev nD) :
    (dat2 (F := Ideal) V c).arrAt 2 cfg2.N = Cert.Gcn.mm2 (V c main_v46) (V c main_arg4) := by
  exact (dat2 (F := Ideal) V c).arrAt_eq_of_cover 2 _ (fun t _ => flushed_eq V c t) cover

end Cert.Gcn.Region2

end
-- ==== Proof.Whole.lean ====
/-
  The whole two-layer graph convolution as ONE function of the seven argument arrays, at extended-real values:
  out = aggregate((relu(aggregate(x · W1) + b1) · clip(p, 0, 1)) · W2) + b2, the aggregation along the edges with
  the symmetric degree weights, both layers using the same sources, targets and weights.
-/
import proofs.«111682_j4303557231207_1_alg».proof.Proof.KernelHost
import proofs.«111682_j4303557231207_1_alg».proof.Proof.Spec

noncomputable section

namespace Cert.Gcn

open Cert.KernelIdeal Idealize.ShloMosaic

/-- The result array as a function of the arguments (features, edge list, first weights, hidden bias, second weights,
    output bias, retain probabilities). -/
def whole (x : FVec Ideal S50000x512 .f32) (ei : Vec Ideal S2x800000 .i32) (w1 : FVec Ideal S512x128 .f32) (b1 : FVec Ideal S128 .f32)
    (w2 : FVec Ideal S128x64 .f32) (b2 : FVec Ideal S64 .f32) (p : FVec Ideal S128 .f32) : FVec Ideal S50000x64 .f32 :=
  K.out64 (K.src ei) (K.dst ei) (K.nrmCol ei)
    (mm2 (act (K.agg128 (K.src ei) (K.dst ei) (K.nrmCol ei) (mm1 x w1))
      (shapeCast S1x128 b1 Cert.KernelIdeal.Gen.shapeCasts_S128_S1x128) (shapeCast S1x128 p Cert.KernelIdeal.Gen.shapeCasts_S128_S1x128)) w2) b2

end Cert.Gcn

end
-- ==== Proof.KernelValue.lean ====
/-
  The value the idealized kernel program ends with, read off its run: the contents at each boundary between a stretch of
  array operations and a kernel region are a fold from the launch memory, and walking that fold back — each region's
  output array at its whole-array function of the region's input arrays, each stretch's buffers at the named functions
  of the stretch's inputs, every other buffer unchanged — the result buffer holds the whole two-layer convolution of the
  seven arguments.
-/
import proofs.«111682_j4303557231207_1_alg».proof.Proof.KernelRun
import proofs.«111682_j4303557231207_1_alg».proof.Proof.KernelStretch
import proofs.«111682_j4303557231207_1_alg».proof.Proof.Region0
import proofs.«111682_j4303557231207_1_alg».proof.Proof.Region1
import proofs.«111682_j4303557231207_1_alg».proof.Proof.Region2
import proofs.«111682_j4303557231207_1_alg».proof.Proof.Whole

set_option maxRecDepth 16384

noncomputable section

namespace Cert.Gcn.KernelValue

open Cert.KernelIdeal Cert.KernelIdeal.Gen
open Idealize.ShloMosaic Idealize.ShloMosaic.TcCoe Idealize.SL.Sem Idealize.ShloMosaic.StableHlo
open Cert.Gcn.Stretch

variable (m : (ℓ : Loc nD τ sig) → Buf (Elt Ideal) ℓ) (ρ : Dev nD → PrngReg) (c : Dev nD)

/-! ## Region 0's entry: the arguments as launched, and the sources, targets and edge weights -/

theorem e3_arg0 : W3 m ρ c (Proc.devRef .tc main_arg0) = m ((c : Thread nD τ).loc main_arg0) :=
  (pre2_kept_arg0 (W2 m ρ c)).trans ((pre1_kept_arg0 (W1 m ρ c)).trans (pre0_kept_arg0 (W0 m ρ c)))
theorem e3_arg2 : W3 m ρ c (Proc.devRef .tc main_arg2) = m ((c : Thread nD τ).loc main_arg2) :=
  (pre2_kept_arg2 (W2 m ρ c)).trans ((pre1_kept_arg2 (W1 m ρ c)).trans (pre0_kept_arg2 (W0 m ρ c)))
theorem e3_arg3 : W3 m ρ c (Proc.devRef .tc main_arg3) = m ((c : Thread nD τ).loc main_arg3) :=
  (pre2_kept_arg3 (W2 m ρ c)).trans ((pre1_kept_arg3 (W1 m ρ c)).trans (pre0_kept_arg3 (W0 m ρ c)))
theorem e3_arg4 : W3 m ρ c (Proc.devRef .tc main_arg4) = m ((c : Thread nD τ).loc main_arg4) :=
  (pre2_kept_arg4 (W2 m ρ c)).trans ((pre1_kept_arg4 (W1 m ρ c)).trans (pre0_kept_arg4 (W0 m ρ c)))
theorem e3_arg5 : W3 m ρ c (Proc.devRef .tc main_arg5) = m ((c : Thread nD τ).loc main_arg5) :=
  (pre2_kept_arg5 (W2 m ρ c)).trans ((pre1_kept_arg5 (W1 m ρ c)).trans (pre0_kept_arg5 (W0 m ρ c)))
theorem e3_arg6 : W3 m ρ c (Proc.devRef .tc main_arg6) = m ((c : Thread nD τ).loc main_arg6) :=
  (pre2_kept_arg6 (W2 m ρ c)).trans ((pre1_kept_arg6 (W1 m ρ c)).trans (pre0_kept_arg6 (W0 m ρ c)))

/-- The message sources, a function of the edge list alone. -/
theorem e3_v3 : W3 m ρ c (Proc.devRef .tc main_v3) = K.src (m ((c : Thread nD τ).loc main_arg1)) :=
  (pre2_kept_v3 (W2 m ρ c)).trans ((pre1_kept_v3 (W1 m ρ c)).trans (pre0_v3 (W0 m ρ c)))
/-- The aggregation targets. -/
theorem e3_v6 : W3 m ρ c (Proc.devRef .tc main_v6) = K.dst (m ((c : Thread nD τ).loc main_arg1)) :=
  (pre2_kept_v6 (W2 m ρ c)).trans ((pre1_kept_v6 (W1 m ρ c)).trans (pre0_v6 (W0 m ρ c)))

/-- The inverse square roots of the degrees. -/
theorem e2_v14 : W2 m ρ c (Proc.devRef .tc main_v14) = K.dinv (m ((c : Thread nD τ).loc main_arg1)) := by
  refine (pre1_v14 (W1 m ρ c)).trans ?_
  rw [show W1 m ρ c (Proc.devRef .tc main_v12) = _ from pre0_v12 (W0 m ρ c),
    show W1 m ρ c (Proc.devRef .tc main_v13) = _ from pre0_v13 (W0 m ρ c),
    show W1 m ρ c (Proc.devRef .tc main_cst_2) = _ from pre0_cst_2 (W0 m ρ c)]
  rfl

/-- The edge weights as a one-column array. -/
theorem e3_v30 : W3 m ρ c (Proc.devRef .tc main_v30) = K.nrmCol (m ((c : Thread nD τ).loc main_arg1)) := by
  refine (pre2_v30 (W2 m ρ c)).trans ?_
  rw [e2_v14 m ρ c,
    show W2 m ρ c (Proc.devRef .tc main_v3) = _ from (pre1_kept_v3 (W1 m ρ c)).trans (pre0_v3 (W0 m ρ c)),
    show W2 m ρ c (Proc.devRef .tc main_v6) = _ from (pre1_kept_v6 (W1 m ρ c)).trans (pre0_v6 (W0 m ρ c))]
  rfl

/-! ## Region 0's exit: x · W1 -/

theorem e4_v31 : W4 m ρ c (Proc.devRef .tc main_v31)
    = mm1 (m ((c : Thread nD τ).loc main_arg0)) (m ((c : Thread nD τ).loc main_arg2)) := by
  refine (W4_arr m ρ c 2).trans ((Region0.arr (V3 m ρ) c).trans ?_)
  rw [show V3 m ρ c main_arg0 = _ from e3_arg0 m ρ c, show V3 m ρ c main_arg2 = _ from e3_arg2 m ρ c]

theorem e4_v3 : W4 m ρ c (Proc.devRef .tc main_v3) = K.src (m ((c : Thread nD τ).loc main_arg1)) :=
  (W4_of_ne m ρ c main_v3 (by decide)).trans (e3_v3 m ρ c)
theorem e4_v6 : W4 m ρ c (Proc.devRef .tc main_v6) = K.dst (m ((c : Thread nD τ).loc main_arg1)) :=
  (W4_of_ne m ρ c main_v6 (by decide)).trans (e3_v6 m ρ c)
theorem e4_v30 : W4 m ρ c (Proc.devRef .tc main_v30) = K.nrmCol (m ((c : Thread nD τ).loc main_arg1)) :=
  (W4_of_ne m ρ c main_v30 (by decide)).trans (e3_v30 m ρ c)
theorem e4_arg3 : W4 m ρ c (Proc.devRef .tc main_arg3) = m ((c : Thread nD τ).loc main_arg3) :=
  (W4_of_ne m ρ c main_arg3 (by decide)).trans (e3_arg3 m ρ c)
theorem e4_arg4 : W4 m ρ c (Proc.devRef .tc main_arg4) = m ((c : Thread nD τ).loc main_arg4) :=
  (W4_of_ne m ρ c main_arg4 (by decide)).trans (e3_arg4 m ρ c)
theorem e4_arg5 : W4 m ρ c (Proc.devRef .tc main_arg5) = m ((c : Thread nD τ).loc main_arg5) :=
  (W4_of_ne m ρ c main_arg5 (by decide)).trans (e3_arg5 m ρ c)
theorem e4_arg6 : W4 m ρ c (Proc.devRef .tc main_arg6) = m ((c : Thread nD τ).loc main_arg6) :=
  (W4_of_ne m ρ c main_arg6 (by decide)).trans (e3_arg6 m ρ c)

/-! ## Region 1's entry: the first aggregation, the bias and the retain probabilities as rows -/

theorem e5_v43 : W5 m ρ c (Proc.devRef .tc main_v43)
    = K.agg128 (K.src (m ((c : Thread nD τ).loc main_arg1))) (K.dst (m ((c : Thread nD τ).loc main_arg1))) (K.nrmCol (m ((c : Thread nD τ).loc main_arg1)))
        (mm1 (m ((c : Thread nD τ).loc main_arg0)) (m ((c : Thread nD τ).loc main_arg2))) := by
  refine (mid_v43 (W4 m ρ c)).trans ?_
  rw [e4_v3 m ρ c, e4_v6 m ρ c, e4_v30 m ρ c, e4_v31 m ρ c]
theorem e5_v44 : W5 m ρ c (Proc.devRef .tc main_v44) = shapeCast S1x128 (m ((c : Thread nD τ).loc main_arg3)) shapeCasts_S128_S1x128 := by
  refine (mid_v44 (W4 m ρ c)).trans ?_
  rw [e4_arg3 m ρ c]
theorem e5_v45 : W5 m ρ c (Proc.devRef .tc main_v45) = shapeCast S1x128 (m ((c : Thread nD τ).loc main_arg6)) shapeCasts_S128_S1x128 := by
  refine (mid_v45 (W4 m ρ c)).trans ?_
  rw [e4_arg6 m ρ c]
theorem e5_v3 : W5 m ρ c (Proc.devRef .tc main_v3) = K.src (m ((c : Thread nD τ).loc main_arg1)) :=
  (mid_kept_v3 (W4 m ρ c)).trans (e4_v3 m ρ c)
theorem e5_v6 : W5 m ρ c (Proc.devRef .tc main_v6) = K.dst (m ((c : Thread nD τ).loc main_arg1)) :=
  (mid_kept_v6 (W4 m ρ c)).trans (e4_v6 m ρ c)
theorem e5_v30 : W5 m ρ c (Proc.devRef .tc main_v30) = K.nrmCol (m ((c : Thread nD τ).loc main_arg1)) :=
  (mid_kept_v30 (W4 m ρ c)).trans (e4_v30 m ρ c)
theorem e5_arg4 : W5 m ρ c (Proc.devRef .tc main_arg4) = m ((c : Thread nD τ).loc main_arg4) :=
  (mid_kept_arg4 (W4 m ρ c)).trans (e4_arg4 m ρ c)
theorem e5_arg5 : W5 m ρ c (Proc.devRef .tc main_arg5) = m ((c : Thread nD τ).loc main_arg5) :=
  (mid_kept_arg5 (W4 m ρ c)).trans (e4_arg5 m ρ c)

/-! ## Region 1's exit: the activations -/

/-- The activations the second layer multiplies. -/
abbrev hid : FVec Ideal S50000x128 .f32 :=
  act (K.agg128 (K.src (m ((c : Thread nD τ).loc main_arg1))) (K.dst (m ((c : Thread nD τ).loc main_arg1))) (K.nrmCol (m ((c : Thread nD τ).loc main_arg1)))
        (mm1 (m ((c : Thread nD τ).loc main_arg0)) (m ((c : Thread nD τ).loc main_arg2))))
    (shapeCast S1x128 (m ((c : Thread nD τ).loc main_arg3)) shapeCasts_S128_S1x128) (shapeCast S1x128 (m ((c : Thread nD τ).loc main_arg6)) shapeCasts_S128_S1x128)

theorem e6_v46 : W6 m ρ c (Proc.devRef .tc main_v46) = hid m c := by
  refine (W6_arr m ρ c 3).trans ((Region1.arr (V5 m ρ) c).trans ?_)
  rw [show V5 m ρ c main_v43 = _ from e5_v43 m ρ c, show V5 m ρ c main_v44 = _ from e5_v44 m ρ c,
    show V5 m ρ c main_v45 = _ from e5_v45 m ρ c]
theorem e6_v3 : W6 m ρ c (Proc.devRef .tc main_v3) = K.src (m ((c : Thread nD τ).loc main_arg1)) :=
  (W6_of_ne m ρ c main_v3 (by decide)).trans (e5_v3 m ρ c)
theorem e6_v6 : W6 m ρ c (Proc.devRef .tc main_v6) = K.dst (m ((c : Thread nD τ).loc main_arg1)) :=
  (W6_of_ne m ρ c main_v6 (by decide)).trans (e5_v6 m ρ c)
theorem e6_v30 : W6 m ρ c (Proc.devRef .tc main_v30) = K.nrmCol (m ((c : Thread nD τ).loc main_arg1)) :=
  (W6_of_ne m ρ c main_v30 (by decide)).trans (e5_v30 m ρ c)
theorem e6_arg4 : W6 m ρ c (Proc.devRef .tc main_arg4) = m ((c : Thread nD τ).loc main_arg4) :=
  (W6_of_ne m ρ c main_arg4 (by decide)).trans (e5_arg4 m ρ c)
theorem e6_arg5 : W6 m ρ c (Proc.devRef .tc main_arg5) = m ((c : Thread nD τ).loc main_arg5) :=
  (W6_of_ne m ρ c main_arg5 (by decide)).trans (e5_arg5 m ρ c)

/-! ## Region 2's exit: the activations times W2 -/

theorem e7_v47 : W7 m ρ c (Proc.devRef .tc main_v47) = mm2 (hid m c) (m ((c : Thread nD τ).loc main_arg4)) := by
  refine (W7_arr m ρ c 2).trans ((Region2.arr (V6 m ρ) c).trans ?_)
  rw [show V6 m ρ c main_v46 = _ from e6_v46 m ρ c, show V6 m ρ c main_arg4 = _ from e6_arg4 m ρ c]
theorem e7_v3 : W7 m ρ c (Proc.devRef .tc main_v3) = K.src (m ((c : Thread nD τ).loc main_arg1)) :=
  (W7_of_ne m ρ c main_v3 (by decide)).trans (e6_v3 m ρ c)
theorem e7_v6 : W7 m ρ c (Proc.devRef .tc main_v6) = K.dst (m ((c : Thread nD τ).loc main_arg1)) :=
  (W7_of_ne m ρ c main_v6 (by decide)).trans (e6_v6 m ρ c)
theorem e7_v30 : W7 m ρ c (Proc.devRef .tc main_v30) = K.nrmCol (m ((c : Thread nD τ).loc main_arg1)) :=
  (W7_of_ne m ρ c main_v30 (by decide)).trans (e6_v30 m ρ c)
theorem e7_arg5 : W7 m ρ c (Proc.devRef .tc main_arg5) = m ((c : Thread nD τ).loc main_arg5) :=
  (W7_of_ne m ρ c main_arg5 (by decide)).trans (e6_arg5 m ρ c)

/-! ## The result -/

/-- The result buffer at the last boundary holds the whole convolution of the seven arguments. -/
theorem result : W8 m ρ c (Proc.devRef .tc main_v62)
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (tail_v62 (W7 m ρ c)).trans ?_
  rw [e7_v3 m ρ c, e7_v6 m ρ c, e7_v30 m ρ c, e7_v47 m ρ c, e7_arg5 m ρ c]
  rfl

end Cert.Gcn.KernelValue

end
-- ==== Proof.RefStages.lean ====
/-
  The reference's stage between its two layers (add the bias to every row, maximum with zero, scale every row by the
  retain probabilities clamped to [0, 1]) at extended-real values is the specification's entrywise formula, the bias
  and the probabilities read as rows of a one-row array.
-/
import proofs.«111682_j4303557231207_1_alg».proof.Proof.RefRead
import proofs.«111682_j4303557231207_1_alg».proof.Proof.Spec
import proofs.«111682_j4303557231207_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Ref

open Cert.ReferenceIdeal Cert.ReferenceIdeal.Gen
open Idealize.ShloMosaic Idealize.ShloMosaic.ValueIdx

/-- The reference's stage between its two layers, in its own array operations, for any float values: add the bias to
    every row, maximum with zero, times the retain probabilities clamped to [0, 1] on every row. -/
def hidden {F : FTy → Type} [FloatOps F] (agg : Vec F S50000x128 .f32) (b p : Vec F S128 .f32) : Vec F S50000x128 .f32 :=
  mulf (maximumf (addf agg (broadcastInDim S50000x128 ![0, 1] bcast_S1x128_S50000x128_0_1 (broadcastInDim S1x128 ![1] bcast_S128_S1x128_1 b))) (broadcastInDim S50000x128 ![] bcast_S_S50000x128 (constant S_ .f32 0x00000000#32))) (broadcastInDim S50000x128 ![0, 1] bcast_S1x128_S50000x128_0_1 (broadcastInDim S1x128 ![1] bcast_S128_S1x128_1 (minimumf (broadcastInDim S128 ![] bcast_S_S128 (id (constant S_ .f32 0x3F800000#32))) (maximumf (broadcastInDim S128 ![] bcast_S_S128 (id (constant S_ .f32 0x00000000#32))) p))))

/-- A one-row array broadcast over the rows reads, at (r, q), its row at q. -/
theorem bcast_rows_apply {α : Type} (y : S1x128.Idx → α) (r : Fin 50000) (q : Fin 128) :
    broadcastInDim S50000x128 ![0, 1] bcast_S1x128_S50000x128_0_1 y (ix2 r q) = y (ix2 (0 : Fin 1) q) :=
  broadcastInDim_apply _ bcast_S1x128_S50000x128_0_1 y (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A vector made a one-row array reads, at (0, q), its entry q. -/
theorem bcast_lane_apply {α : Type} (x : S128.Idx → α) (q : Fin 128) :
    broadcastInDim S1x128 ![1] bcast_S128_S1x128_1 x (ix2 (0 : Fin 1) q) = x (ix1 q) :=
  broadcastInDim_apply _ bcast_S128_S1x128_1 x (ix2 (0 : Fin 1) q) (ix1 q) (fun a => match a with
    | ⟨0, _⟩ => by show q.val = if (128 : Nat) = 1 then 0 else q.val; rw [if_neg (by decide)])

/-- A scalar spread over the whole array reads the scalar at every entry. -/
theorem bcast_scalar_arr_apply {α : Type} (y : S_.Idx → α) (i : S50000x128.Idx) :
    broadcastInDim S50000x128 ![] bcast_S_S50000x128 y i = y ix0 :=
  broadcastInDim_apply _ bcast_S_S50000x128 y i ix0 (fun a => a.elim0)

/-- A scalar spread over a vector reads the scalar at every entry. -/
theorem bcast_scalar_vec_apply {α : Type} (y : S_.Idx → α) (i : S128.Idx) :
    broadcastInDim S128 ![] bcast_S_S128 y i = y ix0 :=
  broadcastInDim_apply _ bcast_S_S128 y i ix0 (fun a => a.elim0)

/-- A vector reshaped to a one-row array reads, at (0, q), its entry q. -/
theorem row_apply {α : Type} (x : S128.Idx → α) (q : Fin 128) :
    shapeCast Cert.KernelIdeal.S1x128 x Cert.KernelIdeal.Gen.shapeCasts_S128_S1x128 (Cert.Gcn.rowe q) = x (ix1 q) :=
  shapeCast_a_1a_apply x _ (0 : Fin 1) q

/-- The reference's stage between the layers is the entrywise formula, the bias and the retain probabilities
    reshaped to one-row arrays. -/
theorem hidden_eq (agg : FVec Ideal S50000x128 .f32) (b p : FVec Ideal S128 .f32) :
    hidden (F := Ideal) agg b p
      = Cert.Gcn.act agg (shapeCast Cert.KernelIdeal.S1x128 b Cert.KernelIdeal.Gen.shapeCasts_S128_S1x128) (shapeCast Cert.KernelIdeal.S1x128 p Cert.KernelIdeal.Gen.shapeCasts_S128_S1x128) := by
  funext i
  obtain ⟨r, q, rfl⟩ : ∃ (r : Fin 50000) (q : Fin 128), i = ix2 r q := ⟨i 0, i 1, eq_ix2 i⟩
  unfold hidden
  show FloatOps.mulf
      (FloatOps.maximumf
        (FloatOps.addf (agg (ix2 r q))
          (broadcastInDim S50000x128 ![0, 1] bcast_S1x128_S50000x128_0_1
            (broadcastInDim S1x128 ![1] bcast_S128_S1x128_1 b) (ix2 r q)))
        (broadcastInDim S50000x128 ![] bcast_S_S50000x128 (constant (F := Ideal) S_ .f32 0x00000000#32) (ix2 r q)))
      (broadcastInDim S50000x128 ![0, 1] bcast_S1x128_S50000x128_0_1
        (broadcastInDim S1x128 ![1] bcast_S128_S1x128_1
          (minimumf (broadcastInDim S128 ![] bcast_S_S128 (constant (F := Ideal) S_ .f32 0x3F800000#32))
            (maximumf (broadcastInDim S128 ![] bcast_S_S128 (constant (F := Ideal) S_ .f32 0x00000000#32)) p)))
        (ix2 r q)) = _
  rw [bcast_rows_apply, bcast_lane_apply, bcast_scalar_arr_apply, bcast_rows_apply, bcast_lane_apply]
  show FloatOps.mulf
      (FloatOps.maximumf (FloatOps.addf (agg (ix2 r q)) (b (ix1 q))) (FloatOps.ofBits .f32 0x00000000#32))
      (FloatOps.minimumf
        (broadcastInDim S128 ![] bcast_S_S128 (constant (F := Ideal) S_ .f32 0x3F800000#32) (ix1 q))
        (FloatOps.maximumf
          (broadcastInDim S128 ![] bcast_S_S128 (constant (F := Ideal) S_ .f32 0x00000000#32) (ix1 q))
          (p (ix1 q)))) = _
  rw [bcast_scalar_vec_apply, bcast_scalar_vec_apply]
  unfold Cert.Gcn.act
  show _ = FloatOps.mulf
      (FloatOps.maximumf
        (FloatOps.addf (agg (ix2 r q))
          (shapeCast Cert.KernelIdeal.S1x128 b Cert.KernelIdeal.Gen.shapeCasts_S128_S1x128 (Cert.Gcn.rowe q)))
        (FloatOps.ofBits .f32 0x00000000#32))
      (FloatOps.minimumf (FloatOps.ofBits .f32 0x3F800000#32)
        (FloatOps.maximumf (FloatOps.ofBits .f32 0x00000000#32)
          (shapeCast Cert.KernelIdeal.S1x128 p Cert.KernelIdeal.Gen.shapeCasts_S128_S1x128 (Cert.Gcn.rowe q))))
  rw [row_apply, row_apply]
  rfl

end Cert.Gcn.Ref

end
-- ==== Proof.RefDots.lean ====
/-
  The reference's two matrix products at extended-real values: each is the sum over the shared axis of the products
  of a row's and a column's entries, which is the specification's product entry by entry.
-/
import proofs.«111682_j4303557231207_1_alg».proof.Proof.RefRead
import proofs.«111682_j4303557231207_1_alg».proof.Proof.Spec
import proofs.«111682_j4303557231207_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.RefDots

open Cert.ReferenceIdeal Cert.ReferenceIdeal.Gen
open Idealize.ShloMosaic Idealize.ShloMosaic.ValueIdx

/-- The first layer's product on the host is x · W1, entry by entry. -/
theorem dot1_eq (x : FVec Ideal S50000x512 .f32) (w : FVec Ideal S512x128 .f32) :
    Host.dotGeneral (F := Ideal) dot_S50000x512_S512x128_S50000x128_1_0_0_1_n_n none x w = Cert.Gcn.mm1 x w := by
  funext i
  show ReadP.val_main_v30 (F := Ideal) x w i = _
  rw [ReadP.val_main_v30_apply]
  unfold Cert.Gcn.mm1
  refine Finset.sum_congr rfl fun k _ => ?_
  -- the operands' entries the sum reads at position k: row (i 0) of x at column k, row k of w at column (i 1)
  have el : ReadP.lidx_main_v30 i k = Cert.Gcn.e512 ⟨(i 0).val, (i 0).isLt⟩ k :=
    funext fun a => by match a with | ⟨0, _⟩ => rfl | ⟨1, _⟩ => rfl
  have er : ReadP.ridx_main_v30 i k = Cert.Gcn.w1e k ⟨(i 1).val, (i 1).isLt⟩ :=
    funext fun a => by match a with | ⟨0, _⟩ => rfl | ⟨1, _⟩ => rfl
  rw [el, er]

/-- The second layer's product on the host is a · W2, entry by entry. -/
theorem dot2_eq (a : FVec Ideal S50000x128 .f32) (w : FVec Ideal S128x64 .f32) :
    Host.dotGeneral (F := Ideal) dot_S50000x128_S128x64_S50000x64_1_0_0_1_n_n none a w = Cert.Gcn.mm2 a w := by
  funext i
  simp only [Host.dotGeneral]
  rw [Ideal.dotGeneral_apply, ← Equiv.sum_comp (contrEquiv1 dot_S50000x128_S128x64_S50000x64_1_0_0_1_n_n 128 rfl rfl).symm]
  unfold Cert.Gcn.mm2
  refine Finset.sum_congr rfl fun k _ => ?_
  have hk := contrEquiv1_symm_val dot_S50000x128_S128x64_S50000x64_1_0_0_1_n_n 128 rfl rfl k
  -- the operands' entries the sum reads at position k: row (i 0) of a at column k, row k of w at column (i 1)
  have el : dot_S50000x128_S128x64_S50000x64_1_0_0_1_n_n.lhsIdx i ((contrEquiv1 dot_S50000x128_S128x64_S50000x64_1_0_0_1_n_n 128 rfl rfl).symm k) = Cert.Gcn.e128 ⟨(i 0).val, (i 0).isLt⟩ k :=
    funext fun a => Fin.ext (by
      match a with
      | ⟨0, _⟩ => exact ReadP.lhs_main_v82_0 _ _
      | ⟨1, _⟩ => exact (ReadP.lhs_main_v82_1 _ _).trans hk)
  have er : dot_S50000x128_S128x64_S50000x64_1_0_0_1_n_n.rhsIdx i ((contrEquiv1 dot_S50000x128_S128x64_S50000x64_1_0_0_1_n_n 128 rfl rfl).symm k) = Cert.Gcn.w2e k ⟨(i 1).val, (i 1).isLt⟩ :=
    funext fun a => Fin.ext (by
      match a with
      | ⟨0, _⟩ => exact (ReadP.rhs_main_v82_0 _ _).trans hk
      | ⟨1, _⟩ => exact ReadP.rhs_main_v82_1 _ _)
  rw [el, er]

end Cert.Gcn.RefDots

end
-- ==== Proof.RefValue.lean ====
/-
  The value the idealized reference ends with: its one composed term of array operations is, operation for
  operation, the shared aggregation functions around its two matrix products and its stage between them (for any
  float values: nothing is computed, the term is only folded into the named functions); at extended-real values
  the products and the stage are the specification's, so the reference's result is the whole convolution of its
  seven arguments.
-/
import proofs.«111682_j4303557231207_1_alg».proof.Proof.RefStages
import proofs.«111682_j4303557231207_1_alg».proof.Proof.RefDots
import proofs.«111682_j4303557231207_1_alg».proof.Proof.Whole

set_option maxRecDepth 16384

noncomputable section

namespace Cert.Gcn.RefValue

open Cert.ReferenceIdeal Cert.ReferenceIdeal.Gen
open Idealize.ShloMosaic Idealize.ShloMosaic.TcCoe Idealize.SL.Sem

/-- The reference's composed term, folded: sources, targets and edge weights of the edge list; the first product
    aggregated; the stage between the layers; the second product aggregated; the output bias. -/
theorem res_fold {F : FTy → Type} [FloatOps F] (m : (ℓ : Loc nD τ sig) → Buf (Elt F) ℓ) (c : Dev nD) :
    Cert.ReferenceIdeal.ValueP.res_main_v98 m c
      = K.out64 (K.src (m ((c.tc : Thread nD τ).loc main_arg1))) (K.dst (m ((c.tc : Thread nD τ).loc main_arg1))) (K.nrmCol (m ((c.tc : Thread nD τ).loc main_arg1)))
          (Host.dotGeneral dot_S50000x128_S128x64_S50000x64_1_0_0_1_n_n none
            (Ref.hidden
              (K.agg128 (K.src (m ((c.tc : Thread nD τ).loc main_arg1))) (K.dst (m ((c.tc : Thread nD τ).loc main_arg1))) (K.nrmCol (m ((c.tc : Thread nD τ).loc main_arg1)))
                (Host.dotGeneral dot_S50000x512_S512x128_S50000x128_1_0_0_1_n_n none (m ((c.tc : Thread nD τ).loc main_arg0)) (m ((c.tc : Thread nD τ).loc main_arg2))))
              (m ((c.tc : Thread nD τ).loc main_arg3)) (m ((c.tc : Thread nD τ).loc main_arg6)))
            (m ((c.tc : Thread nD τ).loc main_arg4)))
          (m ((c.tc : Thread nD τ).loc main_arg5)) := by
  unfold Cert.ReferenceIdeal.ValueP.res_main_v98 K.out64 K.agg128 K.nrmCol K.nrm K.dinv K.deg K.col K.wrap K.src K.dst Ref.hidden
  rfl

/-- At extended-real values the reference's result is the whole convolution of its arguments. -/
theorem res_eq (m : (ℓ : Loc nD τ sig) → Buf (Elt Ideal) ℓ) (c : Dev nD) :
    Cert.ReferenceIdeal.ValueP.res_main_v98 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [res_fold, RefDots.dot1_eq, Ref.hidden_eq, RefDots.dot2_eq]
  rfl

end Cert.Gcn.RefValue

end
-- ==== Proof.lean ====
/-
  A two-layer graph convolution with symmetric degree normalisation and self loops,
    out = A · ((relu(A · (x · W1) + b1) · clip(p, 0, 1)) · W2) + b2,   A[i, j] = Σ over edges j → i of (deg j · deg i)^(-1/2),
  computed by a program of three kernel regions (the two matrix products, block by block over 25 blocks of 2000 rows,
  and the entrywise stage between them) among stretches of array operations that gather, scale and add up along the
  edges — against the same computation written with whole-array operations only.

  At extended-real values both programs compute ONE function of the seven arguments (`Cert.Gcn.whole`): the
  aggregation operations are the same in both, operation for operation; a matrix product computed block of rows by
  block of rows, each block the sum over the shared axis of products of entries (narrowing the factors to a
  shorter float format is the identity on extended reals, and the accumulator starts at zero), is the whole-array
  product, because the blocks tile the rows; and the stage between the layers is entrywise in both. No law of
  arithmetic beyond 0 + s = s is used, so the finiteness of the inputs is never opened.

  The kernel program's run with its result named is the generated frame's launch called again (`GenP.run_main`), its
  value read off the fold of boundary contents (`KernelValue.result`); the reference's run is its generated run
  (`ValueP.run`), its composed term folded into the same functions (`RefValue.res_eq`).
-/
import proofs.«111682_j4303557231207_1_alg».proof.Defs
import proofs.«111682_j4303557231207_1_alg».proof.Proof.Gen.Kernel
import proofs.«111682_j4303557231207_1_alg».proof.Proof.Gen.Kernel.Frame
import proofs.«111682_j4303557231207_1_alg».proof.Proof.Gen.KernelIdeal
import proofs.«111682_j4303557231207_1_alg».proof.Proof.Gen.KernelIdeal.Frame
import proofs.«111682_j4303557231207_1_alg».proof.Proof.Gen.ReferenceIdeal
import proofs.«111682_j4303557231207_1_alg».proof.Proof.Gen.Pre_finite_inputs
import proofs.«111682_j4303557231207_1_alg».proof.Proof.KernelValue
import proofs.«111682_j4303557231207_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both idealized programs end with the whole convolution of those
    arguments in their result arrays. -/
theorem algebraic : Cert.algebraic_KernelIdeal_ReferenceIdeal := by
  intro m ρ m' ρ' _ hagree
  refine ⟨fun c => Cert.Gcn.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.KernelValue.result m ρ c), (h c).2⟩)
      (Cert.KernelIdeal.GenP.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.RefValue.res_eq m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
